-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S512x4096 : Shape := ⟨2, ![512, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096_S4096_0 : ∀ a, (![0] : Fin 1 → Nat) a + S4096.size a ≤ S4096.size a
  h_S4096 : 0 < S4096.numel
  shapeCasts_S4096_S1x4096 : S4096.ShapeCasts S1x4096
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .i1⟩
  | .hbm, ⟨5, _⟩ => ⟨S1x4096, .f32⟩
  | .hbm, ⟨6, _⟩ => ⟨S8192x4096, .f32⟩
  | .hbm, ⟨7, _⟩ => ⟨S8192x4096, .i1⟩
  | .hbm, ⟨8, _⟩ => ⟨S1x4096, .i1⟩
  | .hbm, ⟨9, _⟩ => ⟨S8192x4096, .i1⟩
  | .hbm, ⟨10, _⟩ => ⟨S8192x4096, .i1⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Indicator.lean ====
/-
  The function both programs compute, over the extended reals.

  For a matrix `x` of 8192 rows and 4096 columns and a vector `med` of 4096 thresholds, entry (p, q) of the result is
  1 when the threshold of column q is positive and x(p, q) reaches it, and 0 otherwise. The test is one bit,
  `(med q > 0) ∧ (x(p, q) ≥ med q)`, and the result is that bit converted to a number.

  The two programs convert the bit differently: one widens it to a 32-bit word by zero extension and converts the word
  read as a signed integer, the other converts the bit read as an unsigned integer. A zero-extended bit is 0 or 1 with
  its sign bit clear, so both readings are the same integer (`sitofp_widen`).
-/
import Idealize.ShloMosaic.Lib.ValueIdx
import Idealize.ShloMosaic.Lib.KernelVsHost

noncomputable section

namespace Cert.Indicator

open Idealize.ShloMosaic Idealize.ShloMosaic.ValueIdx

/-- The matrix's shape: 8192 rows, 4096 columns. -/
abbrev Mat : Shape := ⟨2, ![8192, 4096]⟩
/-- The thresholds' shape: one per column. -/
abbrev Row : Shape := ⟨1, ![4096]⟩

/-- The test at entry `i = (p, q)`: column `q`'s threshold is positive, and the entry is at least the threshold. -/
def test (x : FVec Ideal Mat .f32) (med : FVec Ideal Row .f32) (i : Mat.Idx) : BitVec 1 :=
  IntOp.andi (FloatOps.cmpf .ogt (med (ix1 (i 1))) (Scalar.ofBits .f32 0x00000000#32))
    (FloatOps.cmpf .oge (x i) (med (ix1 (i 1))))

/-- The result: the test's bit as a number, 0 or 1. -/
def indicator (x : FVec Ideal Mat .f32) (med : FVec Ideal Row .f32) : FVec Ideal Mat .f32 :=
  fun i => FloatOps.uitofp .f32 (test x med i)

/-- A bit zero-extended to 32 bits and read as a signed integer is the bit read as an unsigned integer: the extension's
    sign bit is clear. -/
theorem sitofp_widen (b : BitVec 1) :
    (FloatOps.sitofp .f32 (b.setWidth 32) : Ideal .f32) = FloatOps.uitofp .f32 b := by
  show ((((b.setWidth 32).toInt : ℤ) : ℝ) : EReal) = (((b.toNat : ℕ) : ℝ) : EReal)
  rw [toInt_setWidth_bit]
  norm_cast

end Cert.Indicator

end
-- ==== Proof.KernelValue.lean ====
/-
  The kernel's result array is the indicator.

  The kernel walks the matrix in 16 blocks of 512 whole rows. At block `t` it loads rows 512·t … 512·t + 511 and the
  whole vector of thresholds, lays the thresholds along every row of the block, forms the bit
  `(med q > 0) ∧ (x(p, q) ≥ med q)` entry by entry, widens it to a word, converts the word and writes the block back to
  the same rows of the result. So entry (r, q) of block `t` is the indicator at row 512·t + r, column q
  (`flushed_eq`); the 16 blocks cover all 8192 rows (`covered`); hence the whole result array is the indicator of the
  two argument arrays (`final`, `run`).
-/
import proofs.«126390_j22754736734796_1_alg».proof.Proof.Gen.KernelIdeal.Value
import proofs.«126390_j22754736734796_1_alg».proof.Proof.Indicator

noncomputable section

namespace Cert.KernelIdeal.Indicator

open Cert.KernelIdeal Cert.KernelIdeal.Gen Idealize.ShloMosaic Idealize.ShloMosaic.TcCoe Idealize.SL.Sem
open Idealize.ShloMosaic.Pipeline (Dat)
open Idealize.ShloMosaic.ValueIdx Cert.Indicator

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- What the body leaves at entry `y = (r, q)` of its block, over any loaded thresholds `P0` and any loaded rows `P1`:
    the bit `(P0 q > 0) ∧ (P1 (r, q) ≥ P0 q)` as a number. The thresholds are read at the entry's column through the
    broadcast down the rows; the widened bit converts as the bit itself. -/
theorem block_apply (P0 : Vec Ideal S4096 .f32) (P1 : Vec Ideal S512x4096 .f32) (y : S512x4096.Idx) :
    Value.E2 P0 P1 y = FloatOps.uitofp (F := Ideal) .f32 (IntOp.andi
      (FloatOps.cmpf (F := Ideal) (φ := .f32) .ogt (P0 (ix1 (y 1))) (Scalar.ofBits .f32 0x00000000#32))
      (FloatOps.cmpf (F := Ideal) (φ := .f32) .oge (P1 y) (P0 (ix1 (y 1))))) := by
  have e0 : Value.ix2_0 y = ix1 (y 1) := funext fun a => Fin.ext (by match a with | ⟨0, _⟩ => rfl)
  have e1 : Value.ix2_1 y = y := funext fun a => Fin.ext (by match a with | ⟨0, _⟩ => rfl | ⟨1, _⟩ => rfl)
  have e2 : Value.ix2_2 y = ix1 (y 1) := funext fun a => Fin.ext (by match a with | ⟨0, _⟩ => rfl)
  show FloatOps.sitofp (F := Ideal) .f32 ((IntOp.andi
    (FloatOps.cmpf (F := Ideal) (φ := .f32) .ogt (P0 (Value.ix2_0 y)) (Scalar.ofBits .f32 0x00000000#32))
    (FloatOps.cmpf (F := Ideal) (φ := .f32) .oge (P1 (Value.ix2_1 y)) (P0 (Value.ix2_2 y)))).setWidth 32) = _
  rw [e0, e1, e2, sitofp_widen]
  rfl

/-- The same for the body's result as the frame names it: the rows and the thresholds are loaded whole, and the one
    store covers the block. -/
theorem body_apply (x0 : Vec Ideal S512x4096 .f32) (x1 : Vec Ideal S4096 .f32) (y : S512x4096.Idx) :
    out0_2 x0 x1 y = FloatOps.uitofp (F := Ideal) .f32 (IntOp.andi
      (FloatOps.cmpf (F := Ideal) (φ := .f32) .ogt (x1 (ix1 (y 1))) (Scalar.ofBits .f32 0x00000000#32))
      (FloatOps.cmpf (F := Ideal) (φ := .f32) .oge (x0 y) (x1 (ix1 (y 1))))) := by
  unfold out0_2
  rw [Value.canon2_eq, block_apply, View.ld_unit_zero (S := S512x4096) zeros2, View.ld_unit_zero (S := S4096) zeros1]

/-- The printed index maps over the 16 grid points: the rows' window and the result's window sit on the same block of
    rows, block `t` at point `t`, both at the one block of columns; the thresholds' window stays on its one block. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 1) = 0 ∧ win0_2.index t (0 : Fin 2) = t.val :=
  (by decide +kernel : ∀ t : Fin grid0.N, _)

/-- What point `t` writes back is block `t` of the indicator of the two argument arrays. -/
theorem flushed_eq (c : Dev nD) (t : Fin cfg0.N) :
    (dats m 0 c).flushed 2 t
      = ((cfg0.win 2).blk t).view.read (Elt Ideal) (indicator (V m c main_arg0) (V m c main_arg1)) := by
  rw [Value.flushed2]
  obtain ⟨f0, f1, f2, f3, f4⟩ := index_facts t
  funext j
  show out0_2 (iblk m c 0 t) (iblk m c 1 t) j
    = indicator (V m c main_arg0) (V m c main_arg1) (((cfg0.win 2).blk t).view.emb j)
  refine (body_apply (iblk m c 0 t) (iblk m c 1 t) j).trans ?_
  show FloatOps.uitofp (F := Ideal) .f32 (IntOp.andi
      (FloatOps.cmpf (F := Ideal) (φ := .f32) .ogt (V m c main_arg1 (((cfg0.win 1).blk t).view.emb (ix1 (j 1)))) (Scalar.ofBits .f32 0x00000000#32))
      (FloatOps.cmpf (F := Ideal) (φ := .f32) .oge (V m c main_arg0 (((cfg0.win 0).blk t).view.emb j))
        (V m c main_arg1 (((cfg0.win 1).blk t).view.emb (ix1 (j 1))))))
    = FloatOps.uitofp (F := Ideal) .f32 (IntOp.andi
      (FloatOps.cmpf (F := Ideal) (φ := .f32) .ogt (V m c main_arg1 (ix1 ((((cfg0.win 2).blk t).view.emb j) 1))) (Scalar.ofBits .f32 0x00000000#32))
      (FloatOps.cmpf (F := Ideal) (φ := .f32) .oge (V m c main_arg0 (((cfg0.win 2).blk t).view.emb j))
        (V m c main_arg1 (ix1 ((((cfg0.win 2).blk t).view.emb j) 1)))))
  have hrows : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have hcol : ((cfg0.win 1).blk t).view.emb (ix1 (j 1)) = ix1 ((((cfg0.win 2).blk t).view.emb j) 1) := by
    funext a; apply Fin.ext
    match a with
    | ⟨0, _⟩ => show win0_1.index t (0 : Fin 1) * 4096 + 1 * (j 1).val = win0_2.index t (1 : Fin 2) * 4096 + 1 * (j 1).val; omega
  rw [hrows, hcol]
  rfl

/-- An index of the result array is in point `t`'s block when each coordinate is in the block's range on its axis. -/
theorem mem_block (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Every entry of the result array lies in some point's block: row `r` in the block of point `r / 512`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  obtain ⟨f0, f1, f2, f3, f4⟩ := index_facts t
  have ht : t.val = (i 0).val / 512 := rfl
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The result array after the run is the indicator of the two argument arrays. -/
theorem final (c : Dev nD) :
    (dats m 0 c).arrAt 2 cfg0.N
      = indicator (m ((c : Thread nD τ).loc main_arg0)) (m ((c : Thread nD τ).loc main_arg1)) :=
  (dats m 0 c).arrAt_eq_of_cover 2 (indicator (V m c main_arg0) (V m c main_arg1)) (fun t _ => flushed_eq m c t) covered

/-- Every weakly fair execution of the kernel ends with the result array at the indicator of the arguments, and the
    arguments unchanged. -/
theorem run : θ_run defs (onTc (τ := τ) (main (F := Ideal))) ⟨m, fun _ => 0, ρ⟩ fun r => ∀ c : Dev nD,
      r.2.mem ((c : Thread nD τ).loc main_v0)
        = indicator (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Indicator

end
-- ==== Proof.ReferenceValue.lean ====
/-
  The reference's result is the indicator.

  The reference compares the thresholds with zero once, as a vector of 4096 bits, lays that vector and the thresholds
  themselves along every row of the matrix, compares the matrix with the thresholds entry by entry, takes the
  conjunction and converts the bit. Read at an entry (p, q), each broadcast reads its operand at column q, so the
  result there is the bit `(med q > 0) ∧ (x(p, q) ≥ med q)` converted: the indicator, by its definition.
-/
import proofs.«126390_j22754736734796_1_alg».proof.Proof.Gen.ReferenceIdeal.Read
import proofs.«126390_j22754736734796_1_alg».proof.Proof.Indicator

noncomputable section

namespace Cert.ReferenceIdeal.Indicator

open Cert.ReferenceIdeal Cert.ReferenceIdeal.Read Idealize.ShloMosaic Idealize.ShloMosaic.ValueIdx Cert.Indicator

/-- Through the two broadcasts of the thresholds (a one-row matrix, then every row), entry (p, q) reads column q. -/
theorem thresholds_col (i : S8192x4096.Idx) : idx_main_v2 (idx_main_v3 i) = ix1 (i 1) :=
  funext fun a => Fin.ext (by match a with | ⟨0, _⟩ => rfl)

/-- Through the two broadcasts of the positivity bits, entry (p, q) reads column q. -/
theorem positive_col (i : S8192x4096.Idx) : idx_main_v5 (idx_main_v6 i) = ix1 (i 1) :=
  funext fun a => Fin.ext (by match a with | ⟨0, _⟩ => rfl)

/-- The reference's last stage is the indicator of its two arguments. -/
theorem result_eq (x : FVec Ideal S8192x4096 .f32) (med : FVec Ideal S4096 .f32) :
    val_main_v8 (F := Ideal) x med = indicator x med := by
  funext i
  rw [val_main_v8_apply, val_main_v7_apply, val_main_v6_apply, val_main_v5_apply, val_main_v1_apply,
    val_main_v0_apply, val_main_cst_apply, val_main_v4_apply, val_main_v3_apply, val_main_v2_apply,
    thresholds_col, positive_col]
  rfl

end Cert.ReferenceIdeal.Indicator

end
-- ==== Proof.lean ====
/-
  The kernel and its reference compute the same matrix of zeros and ones.

  Both take a matrix `x` of 8192 rows and 4096 columns and a vector `med` of 4096 thresholds, and return the matrix whose
  entry (p, q) is 1 when `med q > 0` and `x(p, q) ≥ med q`, and 0 otherwise (Proof/Indicator.lean). The kernel forms it
  in 16 blocks of 512 rows, each from its own rows and the whole vector of thresholds (Proof/KernelValue.lean); the
  reference forms it whole, comparing the thresholds with zero once and laying the bits along the rows
  (Proof/ReferenceValue.lean). The one difference in arithmetic is how the bit becomes a number: widened to a word and
  read signed in the kernel, read unsigned as a bit in the reference; both are the same integer 0 or 1. No property
  of the extended reals is used beyond that, so the inputs' finiteness is never opened.

  The three frames are the generated runs; the idealization rewrote nothing, so that conjunct is trivial.
-/
import proofs.«126390_j22754736734796_1_alg».proof.Defs
import proofs.«126390_j22754736734796_1_alg».proof.Proof.Gen.Kernel
import proofs.«126390_j22754736734796_1_alg».proof.Proof.Gen.Kernel.Skeleton
import proofs.«126390_j22754736734796_1_alg».proof.Proof.Gen.Kernel.Launch
import proofs.«126390_j22754736734796_1_alg».proof.Proof.Gen.Kernel.Points
import proofs.«126390_j22754736734796_1_alg».proof.Proof.Gen.Kernel.Frame
import proofs.«126390_j22754736734796_1_alg».proof.Proof.Gen.KernelIdeal
import proofs.«126390_j22754736734796_1_alg».proof.Proof.Gen.KernelIdeal.Skeleton
import proofs.«126390_j22754736734796_1_alg».proof.Proof.Gen.KernelIdeal.Launch
import proofs.«126390_j22754736734796_1_alg».proof.Proof.Gen.KernelIdeal.Points
import proofs.«126390_j22754736734796_1_alg».proof.Proof.Gen.KernelIdeal.Frame
import proofs.«126390_j22754736734796_1_alg».proof.Proof.Gen.ReferenceIdeal
import proofs.«126390_j22754736734796_1_alg».proof.Proof.Gen.KernelIdeal.Value
import proofs.«126390_j22754736734796_1_alg».proof.Proof.Gen.ReferenceIdeal.Run
import proofs.«126390_j22754736734796_1_alg».proof.Proof.Gen.ReferenceIdeal.Read
import proofs.«126390_j22754736734796_1_alg».proof.Proof.Gen.Pre_finite_inputs
import proofs.«126390_j22754736734796_1_alg».proof.Proof.Indicator
import proofs.«126390_j22754736734796_1_alg».proof.Proof.KernelValue
import proofs.«126390_j22754736734796_1_alg».proof.Proof.ReferenceValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the matrix and the thresholds, the kernel's result array and the reference's both end at
    the indicator of those two arrays. -/
theorem algebraic : Cert.algebraic_KernelIdeal_ReferenceIdeal := by
  intro m ρ m' ρ' _ hagree
  refine ⟨_, Cert.KernelIdeal.Indicator.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Indicator.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
